-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4x2048x2048 : Shape := ⟨3, ![4, 2048, 2048]⟩
abbrev S4x2048 : Shape := ⟨2, ![4, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048 : S_.BroadcastsInDim S4x2048 (![] : Fin 0 → Fin S4x2048.rank)
  reducesTo_S4x2048_S_d0_1 : S4x2048.ReducesTo [0, 1] S_

variable [Facts]

def fn_part2 {F : FTy → Type} [FloatOps F] (main_arg7 : FVec F S4x2048 .f32) (main_v33 : IVec S_ 1) : IVec S_ 1 :=
  let main_v34 : FVec F S4x2048 .f32 := Host.absf main_arg7
  let main_cst_12 : FVec F S_ .f32 := constant S_ .f32 0x7F800000#32
  let main_v35 : FVec F S4x2048 .f32 := broadcastInDim S4x2048 ![] bcast_S_S4x2048 main_cst_12
  let main_v36 : IVec S4x2048 1 := cmpf .olt main_v34 main_v35
  let main_c_13 : IVec S_ 1 := constantI S_ 1 1#1
  let main_v37 : IVec S_ 1 := (fun x v => Host.reduce IntOp.andi x v reducesTo_S4x2048_S_d0_1 h_S_) main_v36 main_c_13
  let main_v38 : IVec S_ 1 := andi main_v33 main_v37
  main_v38

def fn_part1 {F : FTy → Type} [FloatOps F] (main_arg4 : FVec F S4x2048 .f32) (main_arg5 : FVec F S4x2048x2048 .f32) (main_arg6 : FVec F S4x2048 .f32) (main_arg7 : FVec F S4x2048 .f32) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S4x2048 .f32 := Host.absf main_arg4
  let main_cst_6 : FVec F S_ .f32 := constant S_ .f32 0x7F800000#32
  let main_v20 : FVec F S4x2048 .f32 := broadcastInDim S4x2048 ![] bcast_S_S4x2048 main_cst_6
  let main_v21 : IVec S4x2048 1 := cmpf .olt main_v19 main_v20
  let main_c_7 : IVec S_ 1 := constantI S_ 1 1#1
  let main_v22 : IVec S_ 1 := (fun x v => Host.reduce IntOp.andi x v reducesTo_S4x2048_S_d0_1 h_S_) main_v21 main_c_7
  let main_v23 : IVec S_ 1 := andi main_v18 main_v22
  let main_v24 : FVec F S4x2048x2048 .f32 := Host.absf main_arg5
  let main_cst_8 : FVec F S_ .f32 := constant S_ .f32 0x7F800000#32
  let main_v25 : FVec F S4x2048x2048 .f32 := broadcastInDim S4x2048x2048 ![] bcast_S_S4x2048x2048 main_cst_8
  let main_v26 : IVec S4x2048x2048 1 := cmpf .olt main_v24 main_v25
  let main_c_9 : IVec S_ 1 := constantI S_ 1 1#1
  let main_v27 : IVec S_ 1 := (fun x v => Host.reduce IntOp.andi x v reducesTo_S4x2048x2048_S_d0_1_2 h_S_) main_v26 main_c_9
  let main_v28 : IVec S_ 1 := andi main_v23 main_v27
  let main_v29 : FVec F S4x2048 .f32 := Host.absf main_arg6
  let main_cst_10 : FVec F S_ .f32 := constant S_ .f32 0x7F800000#32
  let main_v30 : FVec F S4x2048 .f32 := broadcastInDim S4x2048 ![] bcast_S_S4x2048 main_cst_10
  let main_v31 : IVec S4x2048 1 := cmpf .olt main_v29 main_v30
  let main_c_11 : IVec S_ 1 := constantI S_ 1 1#1
  let main_v32 : IVec S_ 1 := (fun x v => Host.reduce IntOp.andi x v reducesTo_S4x2048_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S4096x2048 .f32) (main_arg3 : FVec F S4x2048x2048 .f32) (main_arg4 : FVec F S4x2048 .f32) (main_arg5 : FVec F S4x2048x2048 .f32) (main_arg6 : FVec F S4x2048 .f32) (main_arg7 : FVec F S4x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_arg5 main_arg6 main_arg7 main_v13 main_v16
-- ==== Kernel.lean ====
abbrev S4096x2048 : Shape := ⟨2, ![4096, 2048]⟩
abbrev S4x2048x2048 : Shape := ⟨3, ![4, 2048, 2048]⟩
abbrev S4x2048 : Shape := ⟨2, ![4, 2048]⟩
abbrev S512x2048 : Shape := ⟨2, ![512, 2048]⟩
abbrev S4x256x2048 : Shape := ⟨3, ![4, 256, 2048]⟩
abbrev S4x256 : Shape := ⟨2, ![4, 256]⟩
abbrev S512x256 : Shape := ⟨2, ![512, 256]⟩
abbrev S1x256x2048 : Shape := ⟨3, ![1, 256, 2048]⟩
abbrev S256x2048 : Shape := ⟨2, ![256, 2048]⟩
abbrev S1x256 : Shape := ⟨2, ![1, 256]⟩
abbrev S256 : Shape := ⟨1, ![256]⟩

abbrev nBuf : Space → Nat
  | .hbm => 16
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048, .f32⟩
  | .hbm, ⟨5, _⟩ => ⟨S4x2048x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4096x2048, .bf16⟩
  | .hbm, ⟨11, _⟩ => ⟨S4096x2048, .bf16⟩
  | .hbm, ⟨12, _⟩ => ⟨S4x2048x2048, .bf16⟩
  | .hbm, ⟨13, _⟩ => ⟨S4x2048x2048, .bf16⟩
  | .hbm, ⟨14, _⟩ => ⟨S4096x2048, .f32⟩
  | .hbm, ⟨15, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4x256x2048, .bf16⟩
  | .local _ .vmem, ⟨5, _⟩ => ⟨S4x256x2048, .bf16⟩
  | .local _ .vmem, ⟨6, _⟩ => ⟨S4x256x2048, .bf16⟩
  | .local _ .vmem, ⟨7, _⟩ => ⟨S4x256x2048, .bf16⟩
  | .local _ .vmem, ⟨8, _⟩ => ⟨S4x256, .f32⟩
  | .local _ .vmem, ⟨9, _⟩ => ⟨S4x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S4x256x2048_S1x256x2048_1_0_0 : ∀ a, (![1, 0, 0] : Fin 3 → Nat) a + S1x256x2048.size a ≤ S4x256x2048.size a
  inb_S4x256_S1x256_1_0 : ∀ a, (![1, 0] : Fin 2 → Nat) a + S1x256.size a ≤ S4x256.size a
  inb_S4x256x2048_S1x256x2048_2_0_0 : ∀ a, (![2, 0, 0] : Fin 3 → Nat) a + S1x256x2048.size a ≤ S4x256x2048.size a
  inb_S4x256_S1x256_2_0 : ∀ a, (![2, 0] : Fin 2 → Nat) a + S1x256.size a ≤ S4x256.size a
  inb_S4x256x2048_S1x256x2048_3_0_0 : ∀ a, (![3, 0, 0] : Fin 3 → Nat) a + S1x256x2048.size a ≤ S4x256x2048.size a
  inb_S4x256_S1x256_3_0 : ∀ a, (![3, 0] : Fin 2 → Nat) a + S1x256.size a ≤ S4x256.size a
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x2048.size a ≤ S4x2048x2048.size a
  hwx0_2 : ∀ i : grid0.Coords, EltTy.bits .bf16 = 32 ∨ (Rect.block (s := S4x2048x2048) S4x256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x2048.size a ≤ S4x2048x2048.size a
  hwx0_3 : ∀ i : grid0.Coords, EltTy.bits .bf16 = 32 ∨ (Rect.block (s := S4x2048x2048) S4x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x2048.size a
  hwx0_4 : ∀ i : grid0.Coords, EltTy.bits .f32 = 32 ∨ (Rect.block (s := S4x2048) S4x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x2048.size a
  hwx0_5 : ∀ i : grid0.Coords, EltTy.bits .f32 = 32 ∨ (Rect.block (s := S4096x2048) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x2048.size a
  hwx0_6 : ∀ i : grid0.Coords, EltTy.bits .f32 = 32 ∨ (Rect.block (s := S4096x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4x2048x2048 : Shape := ⟨3, ![4, 2048, 2048]⟩
abbrev S4x2048 : Shape := ⟨2, ![4, 2048]⟩
abbrev S4096x4x2048 : Shape := ⟨3, ![4096, 4, 2048]⟩
abbrev S1x4x2048 : Shape := ⟨3, ![1, 4, 2048]⟩
abbrev S4096x1x2048 : Shape := ⟨3, ![4096, 1, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048, .f32⟩
  | .hbm, ⟨5, _⟩ => ⟨S4x2048x2048, .f32⟩
  | .hbm, ⟨6, _⟩ => ⟨S4x2048, .f32⟩
  | .hbm, ⟨7, _⟩ => ⟨S4x2048, .f32⟩
  | .hbm, ⟨8, _⟩ => ⟨S4096x4x2048, .f32⟩
  | .hbm, ⟨9, _⟩ => ⟨S4096x4x2048, .f32⟩
  | .hbm, ⟨10, _⟩ => ⟨S4096x4x2048, .f32⟩
  | .hbm, ⟨11, _⟩ => ⟨S4x2048, .f32⟩
  | .hbm, ⟨12, _⟩ => ⟨S4x2048, .f32⟩
  | .hbm, ⟨13, _⟩ => ⟨S1x4x2048, .f32⟩
  | .hbm, ⟨14, _⟩ => ⟨S4096x4x2048, .f32⟩
  | .hbm, ⟨15, _⟩ => ⟨S4096x4x2048, .f32⟩
  | .hbm, ⟨16, _⟩ => ⟨S4096x1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x1x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S4x2048_S1x4x2048_1_2 : S4x2048.BroadcastsInDim S1x4x2048 (![1, 2] : Fin 2 → Fin S1x4x2048.rank)
  bcast_S1x4x2048_S4096x4x2048_0_1_2 : S1x4x2048.BroadcastsInDim S4096x4x2048 (![0, 1, 2] : Fin 3 → Fin S4096x4x2048.rank)
  slices_S4096x4x2048_S4096x1x2048_0_0_0 : S4096x4x2048.Slices ![0, 0, 0] S4096x1x2048
  shapeCasts_S4096x1x2048_S4096x2048 : S4096x1x2048.ShapeCasts S4096x2048
  bcast_S_S4096x2048 : S_.BroadcastsInDim S4096x2048 (![] : Fin 0 → Fin S4096x2048.rank)
  slices_S4096x4x2048_S4096x1x2048_0_1_0 : S4096x4x2048.Slices ![0, 1, 0] S4096x1x2048
  slices_S4096x4x2048_S4096x1x2048_0_2_0 : S4096x4x2048.Slices ![0, 2, 0] S4096x1x2048
  slices_S4096x4x2048_S4096x1x2048_0_3_0 : S4096x4x2048.Slices ![0, 3, 0] S4096x1x2048
  dot_S4096x2048_S4x2048x2048_S4096x4x2048_1_2_0_01_n_n_wf : DotDims.WF S4096x2048 S4x2048x2048 S4096x4x2048 [1] [2] [0] [0, 1] [] []

variable [Facts₀]

def dot_S4096x2048_S4x2048x2048_S4096x4x2048_1_2_0_01_n_n : DotDims S4096x2048 S4x2048x2048 S4096x4x2048 where
  lhsContracting := [1]
  rhsContracting := [2]
  lhsNonContracting := [0]
  rhsNonContracting := [0, 1]
  lhsBatch := []
  rhsBatch := []
  wf := dot_S4096x2048_S4x2048x2048_S4096x4x2048_1_2_0_01_n_n_wf

class Facts : Prop extends Facts₀ where

variable [Facts]
-- ==== Proof.LstmCell.lean ====
/-
  One step of an LSTM cell, as a function of its argument arrays, element by element on the extended reals.

  For a batch row `r` and a hidden unit `h`, gate `g` (0 forget, 1 input, 2 output, 3 candidate) has the
  pre-activation
      a g r h = (Σₖ x[r,k] · W[g,h,k] + Σₖ hPrev[r,k] · V[g,h,k]) + ((bW[g,h] + bV[g,h]) + b[g,h]),
  the sum of the two affine maps' products and of the three biases, grouped as both programs group them. Then
      c'[r,h] = σ(a 0 r h) · c[r,h] + σ(a 1 r h) · tanh (a 3 r h)
      h'[r,h] = σ(a 2 r h) · tanh (c'[r,h])
  with σ the logistic function `1 / (1 + e^(-t))`, which at the extended reals sends −∞ to 0 and +∞ to 1.
  Nothing here needs the entries to be finite: both programs compute this very expression, in this grouping.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.LstmCell

open Idealize.ShloMosaic Idealize.ShloMosaic.ValueIdx

/-- The batch-by-hidden arrays: the input, the two states, and both results. -/
abbrev RowsByUnits : Shape := ⟨2, ![4096, 2048]⟩
/-- A stack of four weight matrices, one per gate, each hidden-by-input. -/
abbrev GateWeights : Shape := ⟨3, ![4, 2048, 2048]⟩
/-- A stack of four bias rows, one per gate. -/
abbrev GateBiases : Shape := ⟨2, ![4, 2048]⟩

variable (x hPrev c : RowsByUnits.Idx → EReal) (W V : GateWeights.Idx → EReal) (bW bV b : GateBiases.Idx → EReal)

/-- The sum of the three bias rows at gate `g`, unit `h`, grouped `(bW + bV) + b`. -/
def biasSum (g : Fin 4) (h : Fin 2048) : EReal :=
  (bW (ix2 g h) + bV (ix2 g h)) + b (ix2 g h)

/-- Gate `g`'s pre-activation at row `r`, unit `h`: the input's and the previous hidden state's products with the
    gate's weight rows, summed over the contracted axis, plus the biases. -/
def preAct (g : Fin 4) (r : Fin 4096) (h : Fin 2048) : EReal :=
  ((∑ k : Fin 2048, x (ix2 r k) * W (ix3 g h k)) + (∑ k : Fin 2048, hPrev (ix2 r k) * V (ix3 g h k)))
    + biasSum bW bV b g h

/-- The next cell state: the forget gate's share of the old state plus the input gate's share of the candidate. -/
def cellNext : RowsByUnits.Idx → EReal := fun i =>
  Ideal.logistic (preAct x hPrev W V bW bV b 0 (i 0) (i 1)) * c i
    + Ideal.logistic (preAct x hPrev W V bW bV b 1 (i 0) (i 1)) * Ideal.tanh (preAct x hPrev W V bW bV b 3 (i 0) (i 1))

/-- The next hidden state: the output gate's share of the squashed next cell state. -/
def hiddenNext : RowsByUnits.Idx → EReal := fun i =>
  Ideal.logistic (preAct x hPrev W V bW bV b 2 (i 0) (i 1)) * Ideal.tanh (cellNext x hPrev c W V bW bV b i)

/-- The logistic function written out with the float pattern of one, `1 / (1 + e^(-t))`: the same function, since
    that pattern denotes the real number one. -/
theorem logistic_spelled (t : EReal) :
    Ideal.div (Ideal.ofBits .f32 0x3F800000#32) (Ideal.ofBits .f32 0x3F800000#32 + Ideal.exp (-t)) = Ideal.logistic t := by
  rw [Ideal.ofBits_one_f32]
  rfl

end Cert.LstmCell

end
-- ==== Proof.ReferenceCell.lean ====
/-
  What the reference computes, read element by element: its two results are the LSTM cell's next cell state and next
  hidden state of the specification.

  The reference forms all four gates' pre-activations at once, as one rank-3 array indexed (row, gate, unit): the
  input's product with the stacked weights, contracted over the input axis, plus the previous hidden state's, plus the
  summed biases repeated along the rows. At (r, g, h) that entry is the specification's pre-activation of gate g.
  Each gate is then cut out as the slice at its gate index and flattened to (row, unit); flattening
  (r, 0, h) ↦ r·2048 + h is undone by the quotient and remainder by 2048. The logistic function appears written out as
  1 / (1 + e^(-t)) over the float pattern of one.
-/
import proofs.«168563_j12618613916356_1_alg».proof.Proof.Gen.ReferenceIdeal.Read
import proofs.«168563_j12618613916356_1_alg».proof.Proof.LstmCell

noncomputable section

open scoped BigOperators

namespace Cert.ReferenceIdeal.RefValue

open Cert.ReferenceIdeal Cert.ReferenceIdeal.Read Idealize.ShloMosaic Idealize.ShloMosaic.ValueIdx Cert.LstmCell

variable (x0 x1 x2 : (⟨S4096x2048, .f32⟩ : BufTy).Contents (Elt Ideal))
  (x3 x5 : (⟨S4x2048x2048, .f32⟩ : BufTy).Contents (Elt Ideal))
  (x4 x6 x7 : (⟨S4x2048, .f32⟩ : BufTy).Contents (Elt Ideal))

/-- The rank-3 array of all pre-activations, at row `r`, gate `g`, unit `h`, is the specification's pre-activation:
    each product's left factor is read at (r, k) and its right factor at (g, h, k), and the bias at (g, h) whatever the row. -/
theorem gates_at (r : Fin 4096) (g : Fin 4) (h : Fin 2048) :
    val_main_v7 (F := Ideal) x0 x1 x3 x4 x5 x6 x7 (ix3 r g h) = preAct x0 x1 x3 x5 x4 x6 x7 g r h := by
  have el0 : ∀ k : Fin 2048, lidx_main_v0 (ix3 r g h) k = ix2 r k := fun k => funext fun a => Fin.ext (by
    match a with
    | ⟨0, _⟩ => rfl
    | ⟨1, _⟩ => rfl)
  have er0 : ∀ k : Fin 2048, ridx_main_v0 (ix3 r g h) k = ix3 g h k := fun k => funext fun a => Fin.ext (by
    match a with
    | ⟨0, _⟩ => rfl
    | ⟨1, _⟩ => rfl
    | ⟨2, _⟩ => rfl)
  have el1 : ∀ k : Fin 2048, lidx_main_v1 (ix3 r g h) k = ix2 r k := fun k => funext fun a => Fin.ext (by
    match a with
    | ⟨0, _⟩ => rfl
    | ⟨1, _⟩ => rfl)
  have er1 : ∀ k : Fin 2048, ridx_main_v1 (ix3 r g h) k = ix3 g h k := fun k => funext fun a => Fin.ext (by
    match a with
    | ⟨0, _⟩ => rfl
    | ⟨1, _⟩ => rfl
    | ⟨2, _⟩ => rfl)
  have eb : idx_main_v5 (idx_main_v6 (ix3 r g h)) = ix2 g h := funext fun a => Fin.ext (by
    match a with
    | ⟨0, _⟩ => rfl
    | ⟨1, _⟩ => rfl)
  rw [val_main_v7_apply, val_main_v2_apply, val_main_v0_apply, val_main_v1_apply, val_main_v6_apply, val_main_v5_apply,
    val_main_v4_apply, val_main_v3_apply, eb]
  simp only [el0, er0, el1, er1, Ideal.addf_def]
  rfl

/-- Flattening (r, 0, h) to (r, h): the quotient and remainder of `r·2048 + h` by 2048 are `r` and `h`. -/
theorem unflatten (r : Fin 4096) (h : Fin 2048) :
    (r.val * 2048 + h.val) / 2048 = r.val ∧ (r.val * 2048 + h.val) % 2048 = h.val := by
  have h0 : r.val < 4096 := r.isLt
  have h1 : h.val < 2048 := h.isLt
  omega

/-- The forget gate's pre-activation: the slice at gate 0, flattened. -/
theorem forget_at (r : Fin 4096) (h : Fin 2048) :
    val_main_v9 (F := Ideal) x0 x1 x3 x4 x5 x6 x7 (ix2 r h) = preAct x0 x1 x3 x5 x4 x6 x7 0 r h := by
  have e : idx_main_v8 (idx_main_v9 (ix2 r h)) = ix3 r (0 : Fin 4) h := funext fun a => Fin.ext (by
    match a with
    | ⟨0, _⟩ => exact (unflatten r h).1
    | ⟨1, _⟩ => rfl
    | ⟨2, _⟩ => exact (unflatten r h).2)
  rw [val_main_v9_apply, val_main_v8_apply, e, gates_at]

/-- The input gate's pre-activation: the slice at gate 1, flattened. -/
theorem input_at (r : Fin 4096) (h : Fin 2048) :
    val_main_v17 (F := Ideal) x0 x1 x3 x4 x5 x6 x7 (ix2 r h) = preAct x0 x1 x3 x5 x4 x6 x7 1 r h := by
  have e : idx_main_v16 (idx_main_v17 (ix2 r h)) = ix3 r (1 : Fin 4) h := funext fun a => Fin.ext (by
    match a with
    | ⟨0, _⟩ => exact (unflatten r h).1
    | ⟨1, _⟩ => rfl
    | ⟨2, _⟩ => exact (unflatten r h).2)
  rw [val_main_v17_apply, val_main_v16_apply, e, gates_at]

/-- The output gate's pre-activation: the slice at gate 2, flattened. -/
theorem output_at (r : Fin 4096) (h : Fin 2048) :
    val_main_v25 (F := Ideal) x0 x1 x3 x4 x5 x6 x7 (ix2 r h) = preAct x0 x1 x3 x5 x4 x6 x7 2 r h := by
  have e : idx_main_v24 (idx_main_v25 (ix2 r h)) = ix3 r (2 : Fin 4) h := funext fun a => Fin.ext (by
    match a with
    | ⟨0, _⟩ => exact (unflatten r h).1
    | ⟨1, _⟩ => rfl
    | ⟨2, _⟩ => exact (unflatten r h).2)
  rw [val_main_v25_apply, val_main_v24_apply, e, gates_at]

/-- The candidate's pre-activation: the slice at gate 3, flattened. -/
theorem candidate_at (r : Fin 4096) (h : Fin 2048) :
    val_main_v33 (F := Ideal) x0 x1 x3 x4 x5 x6 x7 (ix2 r h) = preAct x0 x1 x3 x5 x4 x6 x7 3 r h := by
  have e : idx_main_v32 (idx_main_v33 (ix2 r h)) = ix3 r (3 : Fin 4) h := funext fun a => Fin.ext (by
    match a with
    | ⟨0, _⟩ => exact (unflatten r h).1
    | ⟨1, _⟩ => rfl
    | ⟨2, _⟩ => exact (unflatten r h).2)
  rw [val_main_v33_apply, val_main_v32_apply, e, gates_at]

/-- The reference's second result is the next cell state. -/
theorem cell_eq :
    val_main_v37 (F := Ideal) x0 x1 x2 x3 x4 x5 x6 x7 = cellNext x0 x1 x2 x3 x5 x4 x6 x7 := by
  funext i
  obtain ⟨r, h, rfl⟩ : ∃ (r : Fin 4096) (h : Fin 2048), i = ix2 r h := ⟨i 0, i 1, eq_ix2 i⟩
  simp only [val_main_v37_apply, val_main_v35_apply, val_main_v36_apply, val_main_v34_apply,
    val_main_v15_apply, val_main_v14_apply, val_main_cst_0_apply, val_main_v13_apply, val_main_v12_apply, val_main_cst_apply,
    val_main_v11_apply, val_main_v10_apply,
    val_main_v23_apply, val_main_v22_apply, val_main_cst_2_apply, val_main_v21_apply, val_main_v20_apply, val_main_cst_1_apply,
    val_main_v19_apply, val_main_v18_apply,
    forget_at, input_at, candidate_at,
    Ideal.addf_def, Ideal.mulf_def, Ideal.hostDivf_def, Ideal.hostUnary_exp_def, Ideal.hostUnary_tanh_def,
    Ideal.hostNegf_def, Ideal.negf_def, Ideal.ofBits_def, logistic_spelled]
  rfl

/-- The reference's first result is the next hidden state. -/
theorem hidden_eq :
    val_main_v39 (F := Ideal) x0 x1 x2 x3 x4 x5 x6 x7 = hiddenNext x0 x1 x2 x3 x5 x4 x6 x7 := by
  funext i
  obtain ⟨r, h, rfl⟩ : ∃ (r : Fin 4096) (h : Fin 2048), i = ix2 r h := ⟨i 0, i 1, eq_ix2 i⟩
  simp only [val_main_v39_apply, val_main_v38_apply, cell_eq,
    val_main_v31_apply, val_main_v30_apply, val_main_cst_4_apply, val_main_v29_apply, val_main_v28_apply, val_main_cst_3_apply,
    val_main_v27_apply, val_main_v26_apply, output_at,
    Ideal.addf_def, Ideal.mulf_def, Ideal.hostDivf_def, Ideal.hostUnary_exp_def, Ideal.hostUnary_tanh_def,
    Ideal.hostNegf_def, Ideal.negf_def, Ideal.ofBits_def, logistic_spelled]
  rfl

end Cert.ReferenceIdeal.RefValue

end
-- ==== Proof.BlockCell.lean ====
/-
  What the kernel's body leaves in its two output blocks, element by element, as a function of the six input blocks.

  At a grid point the body holds a 512-row block of the input and of the previous hidden state (all 2048 columns), a
  256-unit slab of each stacked weight array (all four gates, all 2048 columns), the same 256 units of the summed bias
  rows, and the matching 512 × 256 block of the previous cell state. For gate g it multiplies the row block by the
  g-th weight slab, contracting the shared 2048-axis, does the same for the hidden state, adds the two and adds the g-th
  bias row to every row. So at block row p and block unit q gate g's pre-activation is
      (Σₖ xb[p,k] · Wb[g,q,k] + Σₖ hb[p,k] · Vb[g,q,k]) + bias[g,q],
  a matrix product into a zero accumulator being the plain sum of products on the extended reals. The two stored
  blocks are then the next cell state and the next hidden state of these pre-activations.
-/
import proofs.«168563_j12618613916356_1_alg».proof.Proof.Gen.KernelIdeal.Frame
import proofs.«168563_j12618613916356_1_alg».proof.Proof.LstmCell
import Idealize.ShloMosaic.Lib.Pipeline.Value
import Idealize.ShloMosaic.Lib.ValueIdx
import Idealize.ShloMosaic.PureOps.Ideal.Laws

noncomputable section

open scoped BigOperators

namespace Cert.KernelIdeal.BlockCell

open Cert.KernelIdeal Cert.KernelIdeal.Gen Idealize.ShloMosaic Idealize.ShloMosaic.ValueIdx Cert.LstmCell

/-! ## The matrix product's operand indices -/

theorem lhs_axis0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_axis1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_axis0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_axis1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- Rows times rows: a 512 × 2048 block against a 256 × 2048 block, both contracted on their second axis, into a zero
    accumulator, is at (p, q) the sum over k of the products of row p of the one and row q of the other. -/
theorem matmul_rows_at (a : FVec Ideal S512x2048 .bf16) (w : FVec Ideal S256x2048 .bf16) (p : Fin 512) (q : Fin 256) :
    matmul (F := Ideal) dot_S512x2048_S256x2048_S512x256_1_1_0_0_n_n none a w (constant (F := Ideal) S512x256 .f32 0x00000000#32) (ix2 p q)
      = ∑ k : Fin 2048, a (ix2 p k) * w (ix2 q k) := by
  simp only [matmul]
  rw [Ideal.matmul_constant_zero_apply, ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p q) ((contrEquiv1 dot_S512x2048_S256x2048_S512x256_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S512x2048_S256x2048_S512x256_1_1_0_0_n_n.rhsIdx (ix2 p q) ((contrEquiv1 dot_S512x2048_S256x2048_S512x256_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-! ## A gate's slab and bias row -/

/-- A 1 × 256 × 2048 slab read as a 256 × 2048 matrix: entry (q, k) is the slab's (0, q, k). -/
theorem slab_as_matrix_at {α : Type} (w : S1x256x2048.Idx → α) (h : S1x256x2048.ShapeCasts S256x2048) (q : Fin 256) (k : Fin 2048) :
    shapeCast S256x2048 w h (ix2 q k) = w (ix3 0 q k) :=
  shapeCast_apply w h (ix2 q k) (ix3 0 q k) (by
    rewrite [Shape.rowMajor_val_three, Shape.rowMajor_val_two]
    show ((0 : ℕ) * 256 + q.val) * 2048 + k.val = q.val * 2048 + k.val
    omega)

/-- A 1 × 256 bias row, flattened, restored, and repeated down 512 rows: entry (p, q) is the row's (0, q). -/
theorem bias_row_at {α : Type} (bv : S1x256.Idx → α) (h1 : S1x256.ShapeCasts S256) (h2 : S256.ShapeCasts S1x256)
    (hb : S1x256.Broadcasts S512x256) (p : Fin 512) (q : Fin 256) :
    broadcastTo S512x256 (shapeCast S1x256 (shapeCast S256 bv h1) h2) hb (ix2 p q) = bv (ix2 0 q) := by
  rw [shapeCast_shapeCast]
  exact broadcastTo_apply bv hb (ix2 p q) (ix2 0 q) (fun a => match a with
    | ⟨0, _⟩ => by show (0 : ℕ) = if (1 : Nat) = 1 then 0 else p.val; rw [if_pos rfl]
    | ⟨1, _⟩ => by show q.val = if (256 : Nat) = 1 then 0 else q.val; rw [if_neg (by decide)])

/-- A gate's pre-activation at block row `p`, block unit `q`, from the two row blocks, the gate's two weight slabs and its
    bias row: the two sums of products over the contracted axis, plus the bias. -/
def gateOn (a hB : S512x2048.Idx → EReal) (w v : S1x256x2048.Idx → EReal) (bv : S1x256.Idx → EReal) (p : Fin 512) (q : Fin 256) : EReal :=
  ((∑ k : Fin 2048, a (ix2 p k) * w (ix3 0 q k)) + (∑ k : Fin 2048, hB (ix2 p k) * v (ix3 0 q k))) + bv (ix2 0 q)

/-- One gate on a block: the two products with the gate's slabs, summed, plus the gate's bias row on every row. -/
theorem gate_at (a hB : FVec Ideal S512x2048 .bf16) (w v : Vec Ideal S1x256x2048 .bf16) (bv : Vec Ideal S1x256 .f32)
    (hs : S1x256x2048.ShapeCasts S256x2048) (h1 : S1x256.ShapeCasts S256) (h2 : S256.ShapeCasts S1x256)
    (hb : S1x256.Broadcasts S512x256) (p : Fin 512) (q : Fin 256) :
    addf (addf (matmul (F := Ideal) dot_S512x2048_S256x2048_S512x256_1_1_0_0_n_n none a (shapeCast S256x2048 w hs : FVec Ideal S256x2048 .bf16) (constant (F := Ideal) S512x256 .f32 0x00000000#32))
               (matmul (F := Ideal) dot_S512x2048_S256x2048_S512x256_1_1_0_0_n_n none hB (shapeCast S256x2048 v hs : FVec Ideal S256x2048 .bf16) (constant (F := Ideal) S512x256 .f32 0x00000000#32)))
         (broadcastTo S512x256 (shapeCast S1x256 (shapeCast S256 bv h1) h2) hb) (ix2 p q)
      = gateOn a hB w v bv p q := by
  unfold gateOn
  rw [addf_apply, addf_apply, matmul_rows_at, matmul_rows_at, bias_row_at]
  simp only [slab_as_matrix_at]

/-! ## The body's values at a block index -/

theorem logistic_at (v : FVec Ideal S512x256 .f32) (i : S512x256.Idx) : logistic v i = Ideal.logistic (v i) := rfl
theorem tanh_at (v : FVec Ideal S512x256 .f32) (i : S512x256.Idx) : tanh v i = Ideal.tanh (v i) := rfl

/-- Restating a block in its own shape changes nothing. -/
theorem rows_kept (v0 : Vec Ideal S512x2048 .bf16) : k0_pay3 (F := Ideal) v0 = v0 := by
  unfold k0_pay3; exact shapeCast_self v0 _
theorem rows_kept' (v2 : Vec Ideal S512x2048 .bf16) : k0_pay4 (F := Ideal) v2 = v2 := by
  unfold k0_pay4; exact shapeCast_self v2 _

/-- The first gate's pre-activation on the block. -/
theorem first_gate_at (v0 v2 : Vec Ideal S512x2048 .bf16) (v5 v7 : Vec Ideal S1x256x2048 .bf16) (v9 : Vec Ideal S1x256 .f32)
    (p : Fin 512) (q : Fin 256) :
    k0_pay5 (F := Ideal) v0 v2 v5 v7 v9 (ix2 p q)
      = gateOn v0 v2 v5 v7 v9 p q := by
  unfold k0_pay5
  simp only [rows_kept, rows_kept']
  exact gate_at v0 v2 v5 v7 v9 _ _ _ _ p q

/-- The second gate's pre-activation on the block. -/
theorem second_gate_at (v0 v2 : Vec Ideal S512x2048 .bf16) (v17 v19 : Vec Ideal S1x256x2048 .bf16) (v21 : Vec Ideal S1x256 .f32)
    (p : Fin 512) (q : Fin 256) :
    k0_pay6 (F := Ideal) v0 v2 v17 v19 v21 (ix2 p q)
      = gateOn v0 v2 v17 v19 v21 p q := by
  unfold k0_pay6
  simp only [rows_kept, rows_kept']
  exact gate_at v0 v2 v17 v19 v21 _ _ _ _ p q

/-- The stored next cell state at a block index, over the first two gates' pre-activations `v16`, `v28` and the fourth
    gate's slabs. -/
theorem cell_payload_at (v1 v3 : FVec Ideal S512x2048 .bf16) (v4 : Vec Ideal S512x256 .f32) (v16 v28 : FVec Ideal S512x256 .f32)
    (v41 v43 : Vec Ideal S1x256x2048 .bf16) (v45 : Vec Ideal S1x256 .f32) (p : Fin 512) (q : Fin 256) :
    k0_pay1 (F := Ideal) v1 v3 v4 v16 v28 v41 v43 v45 (ix2 p q)
      = Ideal.logistic (v16 (ix2 p q)) * v4 (ix2 p q)
        + Ideal.logistic (v28 (ix2 p q)) * Ideal.tanh (gateOn v1 v3 v41 v43 v45 p q) := by
  unfold k0_pay1
  rw [addf_apply, mulf_apply, mulf_apply, logistic_at, logistic_at, tanh_at, gate_at]

/-- The stored next hidden state at a block index, over the third gate's slabs and the stored next cell state. -/
theorem hidden_payload_at (v1 v3 : FVec Ideal S512x2048 .bf16) (v4 : Vec Ideal S512x256 .f32) (v16 v28 : FVec Ideal S512x256 .f32)
    (v29 v31 : Vec Ideal S1x256x2048 .bf16) (v33 : Vec Ideal S1x256 .f32)
    (v41 v43 : Vec Ideal S1x256x2048 .bf16) (v45 : Vec Ideal S1x256 .f32) (p : Fin 512) (q : Fin 256) :
    k0_pay2 (F := Ideal) v1 v3 v4 v16 v28 v29 v31 v33 v41 v43 v45 (ix2 p q)
      = Ideal.logistic (gateOn v1 v3 v29 v31 v33 p q)
        * Ideal.tanh (k0_pay1 (F := Ideal) v1 v3 v4 v16 v28 v41 v43 v45 (ix2 p q)) := by
  unfold k0_pay2
  rw [mulf_apply, logistic_at, tanh_at, gate_at]

/-! ## The gates' slabs inside the staged blocks -/

/-- Gate `g`'s slab of a staged 4 × 256 × 2048 weight block: its entry (0, q, k) is the block's (g, q, k). -/
theorem slab_load_at {Val : EltTy → Type} {e : EltTy} (X : S4x256x2048.Idx → Val e) (off : Fin 3 → Nat)
    (inb : ∀ a, off a + S1x256x2048.size a ≤ S4x256x2048.size a) (g : Fin 4)
    (h0 : off 0 = g.val) (h1 : off 1 = 0) (h2 : off 2 = 0) (q : Fin 256) (k : Fin 2048) :
    View.ld X (Rect.unit (s := S4x256x2048) off S1x256x2048.size inb) (ix3 0 q k) = X (ix3 g q k) := by
  show X ((Rect.unit (s := S4x256x2048) off S1x256x2048.size inb).idx (ix3 0 q k)) = _
  refine congrArg X (funext fun a => Fin.ext ?_)
  match a with
  | ⟨0, _⟩ => show off 0 + 1 * (0 : ℕ) = g.val; omega
  | ⟨1, _⟩ => show off 1 + 1 * q.val = q.val; omega
  | ⟨2, _⟩ => show off 2 + 1 * k.val = k.val; omega

/-- Gate `g`'s row of a staged 4 × 256 bias block: its entry (0, q) is the block's (g, q). -/
theorem row_load_at {Val : EltTy → Type} {e : EltTy} (X : S4x256.Idx → Val e) (off : Fin 2 → Nat)
    (inb : ∀ a, off a + S1x256.size a ≤ S4x256.size a) (g : Fin 4)
    (h0 : off 0 = g.val) (h1 : off 1 = 0) (q : Fin 256) :
    View.ld X (Rect.unit (s := S4x256) off S1x256.size inb) (ix2 0 q) = X (ix2 g q) := by
  show X ((Rect.unit (s := S4x256) off S1x256.size inb).idx (ix2 0 q)) = _
  refine congrArg X (funext fun a => Fin.ext ?_)
  match a with
  | ⟨0, _⟩ => show off 0 + 1 * (0 : ℕ) = g.val; omega
  | ⟨1, _⟩ => show off 1 + 1 * q.val = q.val; omega

section slabs
variable {Val : EltTy → Type} {e : EltTy} (X : S4x256x2048.Idx → Val e) (Y : S4x256.Idx → Val e) (q : Fin 256) (k : Fin 2048)

theorem slab0_at (inb) : View.ld X (Rect.unit (s := S4x256x2048) ![0, 0, 0] S1x256x2048.size inb) (ix3 0 q k) = X (ix3 0 q k) :=
  slab_load_at X _ inb 0 rfl rfl rfl q k
theorem slab1_at (inb) : View.ld X (Rect.unit (s := S4x256x2048) ![1, 0, 0] S1x256x2048.size inb) (ix3 0 q k) = X (ix3 1 q k) :=
  slab_load_at X _ inb 1 rfl rfl rfl q k
theorem slab2_at (inb) : View.ld X (Rect.unit (s := S4x256x2048) ![2, 0, 0] S1x256x2048.size inb) (ix3 0 q k) = X (ix3 2 q k) :=
  slab_load_at X _ inb 2 rfl rfl rfl q k
theorem slab3_at (inb) : View.ld X (Rect.unit (s := S4x256x2048) ![3, 0, 0] S1x256x2048.size inb) (ix3 0 q k) = X (ix3 3 q k) :=
  slab_load_at X _ inb 3 rfl rfl rfl q k
theorem row0_at (inb) : View.ld Y (Rect.unit (s := S4x256) ![0, 0] S1x256.size inb) (ix2 0 q) = Y (ix2 0 q) :=
  row_load_at Y _ inb 0 rfl rfl q
theorem row1_at (inb) : View.ld Y (Rect.unit (s := S4x256) ![1, 0] S1x256.size inb) (ix2 0 q) = Y (ix2 1 q) :=
  row_load_at Y _ inb 1 rfl rfl q
theorem row2_at (inb) : View.ld Y (Rect.unit (s := S4x256) ![2, 0] S1x256.size inb) (ix2 0 q) = Y (ix2 2 q) :=
  row_load_at Y _ inb 2 rfl rfl q
theorem row3_at (inb) : View.ld Y (Rect.unit (s := S4x256) ![3, 0] S1x256.size inb) (ix2 0 q) = Y (ix2 3 q) :=
  row_load_at Y _ inb 3 rfl rfl q
end slabs

/-! ## The two stored blocks against the specification -/

theorem zero_offsets : (![0, 0] : Fin 2 → Nat) = fun _ => 0 := funext fun a => by fin_cases a <;> rfl

section blocks
variable (X H C : RowsByUnits.Idx → EReal) (W V : GateWeights.Idx → EReal) (bW bV b : GateBiases.Idx → EReal)
  (xb hb : Vec Ideal S512x2048 .bf16) (Wb Vb : Vec Ideal S4x256x2048 .bf16) (bb : Vec Ideal S4x256 .f32) (cb : Vec Ideal S512x256 .f32)
  (r : Fin 4096) (u : Fin 2048) (p : Fin 512) (q : Fin 256)

/-- A gate's pre-activation over blocks is the specification's at row `r`, unit `u`, gate `g`, once the row blocks
    agree with the arrays along row `r`, the slabs with gate `g`'s weight rows at unit `u`, and the bias row with the summed
    biases there: the sums agree term by term. -/
theorem gateOn_eq (a hB : S512x2048.Idx → EReal) (w v : S1x256x2048.Idx → EReal) (bv : S1x256.Idx → EReal) (g : Fin 4)
    (r : Fin 4096) (u : Fin 2048) (p : Fin 512) (q : Fin 256)
    (hx : ∀ k : Fin 2048, a (ix2 p k) = X (ix2 r k)) (hh : ∀ k : Fin 2048, hB (ix2 p k) = H (ix2 r k))
    (hw : ∀ k : Fin 2048, w (ix3 0 q k) = W (ix3 g u k)) (hv : ∀ k : Fin 2048, v (ix3 0 q k) = V (ix3 g u k))
    (hb : bv (ix2 0 q) = biasSum bW bV b g u) :
    gateOn a hB w v bv p q = preAct X H W V bW bV b g r u := by
  unfold gateOn preAct
  simp only [hx, hh, hw, hv, hb]

/-- If block row `p` is array row `r` and block unit `q` is hidden unit `u` — the two row blocks agree with the input and
    the previous hidden state along row `r`, the weight slabs with the stacked weights at unit `u`, the bias block with the
    summed bias rows there, and the state block with the previous cell state at (r, u) — then the block stored as the
    next cell state holds the specification's next cell state at (r, u). -/
theorem cell_block_at
    (hx : ∀ k : Fin 2048, xb (ix2 p k) = X (ix2 r k)) (hh : ∀ k : Fin 2048, hb (ix2 p k) = H (ix2 r k))
    (hW : ∀ (g : Fin 4) (k : Fin 2048), Wb (ix3 g q k) = W (ix3 g u k))
    (hV : ∀ (g : Fin 4) (k : Fin 2048), Vb (ix3 g q k) = V (ix3 g u k))
    (hbias : ∀ g : Fin 4, bb (ix2 g q) = biasSum bW bV b g u)
    (hc : cb (ix2 p q) = C (ix2 r u)) :
    out0_7 (F := Ideal) xb hb Wb Vb bb cb (ix2 p q) = cellNext X H C W V bW bV b (ix2 r u) := by
  unfold out0_7
  rw [View.canon_unit_zero zero_offsets]
  simp only [View.ld_unit_zero (S := S512x2048) zero_offsets, View.ld_unit_zero (S := S512x256) zero_offsets]
  rw [cell_payload_at, first_gate_at, second_gate_at, rows_kept, rows_kept', hc,
    gateOn_eq X H W V bW bV b xb hb (View.ld Wb r0_2) (View.ld Vb r0_2) (View.ld bb r0_3) 0 r u p q hx hh
        (fun k => (slab0_at Wb q k _).trans (hW 0 k)) (fun k => (slab0_at Vb q k _).trans (hV 0 k)) ((row0_at bb q _).trans (hbias 0)),
    gateOn_eq X H W V bW bV b xb hb (View.ld Wb r0_4) (View.ld Vb r0_4) (View.ld bb r0_5) 1 r u p q hx hh
        (fun k => (slab1_at Wb q k _).trans (hW 1 k)) (fun k => (slab1_at Vb q k _).trans (hV 1 k)) ((row1_at bb q _).trans (hbias 1)),
    gateOn_eq X H W V bW bV b xb hb (View.ld Wb r0_8) (View.ld Vb r0_8) (View.ld bb r0_9) 3 r u p q hx hh
        (fun k => (slab3_at Wb q k _).trans (hW 3 k)) (fun k => (slab3_at Vb q k _).trans (hV 3 k)) ((row3_at bb q _).trans (hbias 3))]
  rfl

/-- Under the same agreement the block stored as the next hidden state holds the specification's next hidden state. -/
theorem hidden_block_at
    (hx : ∀ k : Fin 2048, xb (ix2 p k) = X (ix2 r k)) (hh : ∀ k : Fin 2048, hb (ix2 p k) = H (ix2 r k))
    (hW : ∀ (g : Fin 4) (k : Fin 2048), Wb (ix3 g q k) = W (ix3 g u k))
    (hV : ∀ (g : Fin 4) (k : Fin 2048), Vb (ix3 g q k) = V (ix3 g u k))
    (hbias : ∀ g : Fin 4, bb (ix2 g q) = biasSum bW bV b g u)
    (hc : cb (ix2 p q) = C (ix2 r u)) :
    out0_6 (F := Ideal) xb hb Wb Vb bb cb (ix2 p q) = hiddenNext X H C W V bW bV b (ix2 r u) := by
  unfold out0_6
  rw [View.canon_unit_zero zero_offsets]
  simp only [View.ld_unit_zero (S := S512x2048) zero_offsets, View.ld_unit_zero (S := S512x256) zero_offsets]
  rw [hidden_payload_at, cell_payload_at, first_gate_at, second_gate_at, rows_kept, rows_kept', hc,
    gateOn_eq X H W V bW bV b xb hb (View.ld Wb r0_2) (View.ld Vb r0_2) (View.ld bb r0_3) 0 r u p q hx hh
        (fun k => (slab0_at Wb q k _).trans (hW 0 k)) (fun k => (slab0_at Vb q k _).trans (hV 0 k)) ((row0_at bb q _).trans (hbias 0)),
    gateOn_eq X H W V bW bV b xb hb (View.ld Wb r0_4) (View.ld Vb r0_4) (View.ld bb r0_5) 1 r u p q hx hh
        (fun k => (slab1_at Wb q k _).trans (hW 1 k)) (fun k => (slab1_at Vb q k _).trans (hV 1 k)) ((row1_at bb q _).trans (hbias 1)),
    gateOn_eq X H W V bW bV b xb hb (View.ld Wb r0_6) (View.ld Vb r0_6) (View.ld bb r0_7) 2 r u p q hx hh
        (fun k => (slab2_at Wb q k _).trans (hW 2 k)) (fun k => (slab2_at Vb q k _).trans (hV 2 k)) ((row2_at bb q _).trans (hbias 2)),
    gateOn_eq X H W V bW bV b xb hb (View.ld Wb r0_8) (View.ld Vb r0_8) (View.ld bb r0_9) 3 r u p q hx hh
        (fun k => (slab3_at Wb q k _).trans (hW 3 k)) (fun k => (slab3_at Vb q k _).trans (hV 3 k)) ((row3_at bb q _).trans (hbias 3))]
  rfl

end blocks

end Cert.KernelIdeal.BlockCell

end
-- ==== Proof.ArrayCell.lean ====
/-
  From blocks to whole arrays: after the run the kernel's two result arrays hold the LSTM cell's next hidden state and
  next cell state of the argument arrays.

  The 4096 × 2048 results are written in an 8 × 8 grid of 512 × 256 blocks; the point with block indices (i, j) reads
  rows 512·i … 512·i + 511 of the input and of the previous hidden state, units 256·j … 256·j + 255 of every gate's
  weights and biases, and block (i, j) of the previous cell state. The arrays it reads are the arguments themselves, or
  host-side images of them: the input, the hidden state and the two weight stacks narrowed to a shorter float format,
  which on the extended reals changes nothing, and the three bias stacks added up. So block row p, block unit q of point
  (i, j) is row 512·i + p, unit 256·j + q of the specification, and the 64 blocks tile each result array.
-/
import proofs.«168563_j12618613916356_1_alg».proof.Proof.Gen.KernelIdeal.Value
import proofs.«168563_j12618613916356_1_alg».proof.Proof.BlockCell
import Idealize.ShloMosaic.Lib.StableHlo.Run

set_option maxRecDepth 16384

noncomputable section

open scoped BigOperators

namespace Cert.KernelIdeal.ArrayCell

open Cert.KernelIdeal Cert.KernelIdeal.Gen Idealize.ShloMosaic Idealize.ShloMosaic.TcCoe Idealize.SL.Sem
open Idealize.ShloMosaic.StableHlo Idealize.ShloMosaic.ValueIdx Cert.LstmCell Cert.KernelIdeal.BlockCell
open Idealize.ShloMosaic.Pipeline (Dat)

variable (m : (ℓ : Loc nD τ sig) → Buf (Elt Ideal) ℓ) (ρ : Dev nD → PrngReg)

/-! ## The argument arrays, and the two results as functions of them -/

abbrev argX (c : Dev nD) : RowsByUnits.Idx → EReal := m ((c : Thread nD τ).loc main_arg0)
abbrev argH (c : Dev nD) : RowsByUnits.Idx → EReal := m ((c : Thread nD τ).loc main_arg1)
abbrev argC (c : Dev nD) : RowsByUnits.Idx → EReal := m ((c : Thread nD τ).loc main_arg2)
abbrev argW (c : Dev nD) : GateWeights.Idx → EReal := m ((c : Thread nD τ).loc main_arg3)
abbrev argBW (c : Dev nD) : GateBiases.Idx → EReal := m ((c : Thread nD τ).loc main_arg4)
abbrev argV (c : Dev nD) : GateWeights.Idx → EReal := m ((c : Thread nD τ).loc main_arg5)
abbrev argBV (c : Dev nD) : GateBiases.Idx → EReal := m ((c : Thread nD τ).loc main_arg6)
abbrev argB (c : Dev nD) : GateBiases.Idx → EReal := m ((c : Thread nD τ).loc main_arg7)

/-- The next cell state of the argument arrays. -/
abbrev cellOf (c : Dev nD) : RowsByUnits.Idx → EReal :=
  cellNext (argX m c) (argH m c) (argC m c) (argW m c) (argV m c) (argBW m c) (argBV m c) (argB m c)
/-- The next hidden state of the argument arrays. -/
abbrev hiddenOf (c : Dev nD) : RowsByUnits.Idx → EReal :=
  hiddenNext (argX m c) (argH m c) (argC m c) (argW m c) (argV m c) (argBW m c) (argBV m c) (argB m c)

/-! ## What the host wrote before the region -/

/-- The staged input is the input: narrowing the float format is the identity on the extended reals. -/
theorem staged_x (c : Dev nD) (i : S4096x2048.Idx) : (V m c main_v2 : S4096x2048.Idx → EReal) i = argX m c i := by
  have e : (V m c main_v2 : S4096x2048.Idx → EReal)
      = truncf (F := Ideal) .bf16 (m ((c : Thread nD τ).loc main_arg0) : FVec Ideal S4096x2048 .f32) bitsLt_bf16_f32 := by
    dsimp only [Gen.V, Gen.hostOps0]; after_results <;> rfl
  rw [e]; rfl

/-- The staged previous hidden state is the previous hidden state. -/
theorem staged_h (c : Dev nD) (i : S4096x2048.Idx) : (V m c main_v3 : S4096x2048.Idx → EReal) i = argH m c i := by
  have e : (V m c main_v3 : S4096x2048.Idx → EReal)
      = truncf (F := Ideal) .bf16 (m ((c : Thread nD τ).loc main_arg1) : FVec Ideal S4096x2048 .f32) bitsLt_bf16_f32 := by
    dsimp only [Gen.V, Gen.hostOps0]; after_results <;> rfl
  rw [e]; rfl

/-- The staged input weights are the input weights. -/
theorem staged_W (c : Dev nD) (i : S4x2048x2048.Idx) : (V m c main_v4 : S4x2048x2048.Idx → EReal) i = argW m c i := by
  have e : (V m c main_v4 : S4x2048x2048.Idx → EReal)
      = truncf (F := Ideal) .bf16 (m ((c : Thread nD τ).loc main_arg3) : FVec Ideal S4x2048x2048 .f32) bitsLt_bf16_f32 := by
    dsimp only [Gen.V, Gen.hostOps0]; after_results <;> rfl
  rw [e]; rfl

/-- The staged hidden weights are the hidden weights. -/
theorem staged_V (c : Dev nD) (i : S4x2048x2048.Idx) : (V m c main_v5 : S4x2048x2048.Idx → EReal) i = argV m c i := by
  have e : (V m c main_v5 : S4x2048x2048.Idx → EReal)
      = truncf (F := Ideal) .bf16 (m ((c : Thread nD τ).loc main_arg5) : FVec Ideal S4x2048x2048 .f32) bitsLt_bf16_f32 := by
    dsimp only [Gen.V, Gen.hostOps0]; after_results <;> rfl
  rw [e]; rfl

/-- The staged bias is the three bias stacks added, grouped (bW + bV) + b. -/
theorem staged_bias (c : Dev nD) (g : Fin 4) (u : Fin 2048) :
    (V m c main_v1 : S4x2048.Idx → EReal) (ix2 g u) = biasSum (argBW m c) (argBV m c) (argB m c) g u := by
  have e : (V m c main_v1 : S4x2048.Idx → EReal)
      = addf (F := Ideal) (s := S4x2048) (φ := .f32)
          (addf (F := Ideal) (s := S4x2048) (φ := .f32) (m ((c : Thread nD τ).loc main_arg4)) (m ((c : Thread nD τ).loc main_arg6)))
          (m ((c : Thread nD τ).loc main_arg7)) := by
    dsimp only [Gen.V, Gen.hostOps0]; after_results <;> rfl
  rw [e]; rfl

/-- The staged previous cell state is the argument itself: no host operation touches it. -/
theorem staged_c (c : Dev nD) (i : S4096x2048.Idx) : (V m c main_arg2 : S4096x2048.Idx → EReal) i = argC m c i := by
  rw [V_main_arg2]

/-! ## The index maps over the grid -/

/-- The printed index maps, decided over the 64 grid points: the two row blocks follow the result's row-block index and
    span all columns; the weight slabs and the bias block follow its unit-block index and span all gates (and all
    columns); the cell-state block and the second result's block sit where the first result's does; and both block
    indices stay below 8. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 3) = 0 ∧ win0_2.index t (1 : Fin 3) = win0_6.index t (1 : Fin 2) ∧ win0_2.index t (2 : Fin 3) = 0
    ∧ win0_3.index t (0 : Fin 3) = 0 ∧ win0_3.index t (1 : Fin 3) = win0_6.index t (1 : Fin 2) ∧ win0_3.index t (2 : Fin 3) = 0
    ∧ win0_4.index t (0 : Fin 2) = 0 ∧ win0_4.index t (1 : Fin 2) = win0_6.index t (1 : Fin 2)
    ∧ win0_5.index t (0 : Fin 2) = win0_6.index t (0 : Fin 2) ∧ win0_5.index t (1 : Fin 2) = win0_6.index t (1 : Fin 2)
    ∧ win0_7.index t (0 : Fin 2) = win0_6.index t (0 : Fin 2) ∧ win0_7.index t (1 : Fin 2) = win0_6.index t (1 : Fin 2)
    ∧ win0_6.index t (0 : Fin 2) ≤ 7 ∧ win0_6.index t (1 : Fin 2) ≤ 7 :=
  (by decide +kernel : ∀ t : Fin grid0.N, _)

/-- Every pair of block indices below 8 is some grid point's. -/
theorem idx_onto : ∀ (q0 q1 : Fin 8), ∃ t : Fin cfg0.N, win0_6.index t = ![q0.val, q1.val] :=
  (by decide +kernel : ∀ (q0 q1 : Fin 8), ∃ t : Fin grid0.N, win0_6.index t = ![q0.val, q1.val])

/-! ## Each staged block read where the result's block says -/

section reads
variable (c : Dev nD) (t : Fin cfg0.N)

/-- Row p of the input's block at a point is row 512·i + p of the input, i the point's row-block index. -/
theorem x_rows (p : Fin 512) (k : Fin 2048) (r : Fin 4096) (hr : r.val = win0_6.index t (0 : Fin 2) * 512 + p.val) :
    (iblk m c 0 t : Vec Ideal S512x2048 .bf16) (ix2 p k) = argX m c (ix2 r k) := by
  obtain ⟨e00, e01, e10, e11, e20, e21, e22, e30, e31, e32, e40, e41, e50, e51, e70, e71, b0, b1⟩ := idx_facts t
  unfold iblk
  rw [View.read_apply]
  show (V m c main_v2 : S4096x2048.Idx → EReal) (((cfg0.win 0).blk t).view.emb (ix2 p k)) = _
  rw [staged_x]
  refine congrArg (argX m c) (funext fun a => Fin.ext ?_)
  match a with
  | ⟨0, _⟩ => show win0_0.index t (0 : Fin 2) * 512 + 1 * p.val = r.val; omega
  | ⟨1, _⟩ => show win0_0.index t (1 : Fin 2) * 2048 + 1 * k.val = k.val; omega

/-- Row p of the previous hidden state's block is row 512·i + p of the previous hidden state. -/
theorem h_rows (p : Fin 512) (k : Fin 2048) (r : Fin 4096) (hr : r.val = win0_6.index t (0 : Fin 2) * 512 + p.val) :
    (iblk m c 1 t : Vec Ideal S512x2048 .bf16) (ix2 p k) = argH m c (ix2 r k) := by
  obtain ⟨e00, e01, e10, e11, e20, e21, e22, e30, e31, e32, e40, e41, e50, e51, e70, e71, b0, b1⟩ := idx_facts t
  unfold iblk
  rw [View.read_apply]
  show (V m c main_v3 : S4096x2048.Idx → EReal) (((cfg0.win 1).blk t).view.emb (ix2 p k)) = _
  rw [staged_h]
  refine congrArg (argH m c) (funext fun a => Fin.ext ?_)
  match a with
  | ⟨0, _⟩ => show win0_1.index t (0 : Fin 2) * 512 + 1 * p.val = r.val; omega
  | ⟨1, _⟩ => show win0_1.index t (1 : Fin 2) * 2048 + 1 * k.val = k.val; omega

/-- Unit q of the input weights' block is unit 256·j + q of the input weights, j the point's unit-block index, for every gate and column. -/
theorem W_slab (g : Fin 4) (q : Fin 256) (k : Fin 2048) (u : Fin 2048) (hu : u.val = win0_6.index t (1 : Fin 2) * 256 + q.val) :
    (iblk m c 2 t : Vec Ideal S4x256x2048 .bf16) (ix3 g q k) = argW m c (ix3 g u k) := by
  obtain ⟨e00, e01, e10, e11, e20, e21, e22, e30, e31, e32, e40, e41, e50, e51, e70, e71, b0, b1⟩ := idx_facts t
  unfold iblk
  rw [View.read_apply]
  show (V m c main_v4 : S4x2048x2048.Idx → EReal) (((cfg0.win 2).blk t).view.emb (ix3 g q k)) = _
  rw [staged_W]
  refine congrArg (argW m c) (funext fun a => Fin.ext ?_)
  match a with
  | ⟨0, _⟩ => show win0_2.index t (0 : Fin 3) * 4 + 1 * g.val = g.val; omega
  | ⟨1, _⟩ => show win0_2.index t (1 : Fin 3) * 256 + 1 * q.val = u.val; omega
  | ⟨2, _⟩ => show win0_2.index t (2 : Fin 3) * 2048 + 1 * k.val = k.val; omega

/-- Unit q of the hidden weights' block is unit 256·j + q of the hidden weights. -/
theorem V_slab (g : Fin 4) (q : Fin 256) (k : Fin 2048) (u : Fin 2048) (hu : u.val = win0_6.index t (1 : Fin 2) * 256 + q.val) :
    (iblk m c 3 t : Vec Ideal S4x256x2048 .bf16) (ix3 g q k) = argV m c (ix3 g u k) := by
  obtain ⟨e00, e01, e10, e11, e20, e21, e22, e30, e31, e32, e40, e41, e50, e51, e70, e71, b0, b1⟩ := idx_facts t
  unfold iblk
  rw [View.read_apply]
  show (V m c main_v5 : S4x2048x2048.Idx → EReal) (((cfg0.win 3).blk t).view.emb (ix3 g q k)) = _
  rw [staged_V]
  refine congrArg (argV m c) (funext fun a => Fin.ext ?_)
  match a with
  | ⟨0, _⟩ => show win0_3.index t (0 : Fin 3) * 4 + 1 * g.val = g.val; omega
  | ⟨1, _⟩ => show win0_3.index t (1 : Fin 3) * 256 + 1 * q.val = u.val; omega
  | ⟨2, _⟩ => show win0_3.index t (2 : Fin 3) * 2048 + 1 * k.val = k.val; omega

/-- Unit q of the bias block is the three biases summed at unit 256·j + q, for every gate. -/
theorem bias_rows (g : Fin 4) (q : Fin 256) (u : Fin 2048) (hu : u.val = win0_6.index t (1 : Fin 2) * 256 + q.val) :
    (iblk m c 4 t : Vec Ideal S4x256 .f32) (ix2 g q) = biasSum (argBW m c) (argBV m c) (argB m c) g u := by
  obtain ⟨e00, e01, e10, e11, e20, e21, e22, e30, e31, e32, e40, e41, e50, e51, e70, e71, b0, b1⟩ := idx_facts t
  unfold iblk
  rw [View.read_apply]
  show (V m c main_v1 : S4x2048.Idx → EReal) (((cfg0.win 4).blk t).view.emb (ix2 g q)) = _
  rw [← staged_bias m c g u]
  refine congrArg (V m c main_v1 : S4x2048.Idx → EReal) (funext fun a => Fin.ext ?_)
  match a with
  | ⟨0, _⟩ => show win0_4.index t (0 : Fin 2) * 4 + 1 * g.val = g.val; omega
  | ⟨1, _⟩ => show win0_4.index t (1 : Fin 2) * 256 + 1 * q.val = u.val; omega

/-- Entry (p, q) of the previous cell state's block is its entry (512·i + p, 256·j + q). -/
theorem c_block (p : Fin 512) (q : Fin 256) (r : Fin 4096) (u : Fin 2048)
    (hr : r.val = win0_6.index t (0 : Fin 2) * 512 + p.val) (hu : u.val = win0_6.index t (1 : Fin 2) * 256 + q.val) :
    (iblk m c 5 t : Vec Ideal S512x256 .f32) (ix2 p q) = argC m c (ix2 r u) := by
  obtain ⟨e00, e01, e10, e11, e20, e21, e22, e30, e31, e32, e40, e41, e50, e51, e70, e71, b0, b1⟩ := idx_facts t
  unfold iblk
  rw [View.read_apply]
  show (V m c main_arg2 : S4096x2048.Idx → EReal) (((cfg0.win 5).blk t).view.emb (ix2 p q)) = _
  rw [staged_c]
  refine congrArg (argC m c) (funext fun a => Fin.ext ?_)
  match a with
  | ⟨0, _⟩ => show win0_5.index t (0 : Fin 2) * 512 + 1 * p.val = r.val; omega
  | ⟨1, _⟩ => show win0_5.index t (1 : Fin 2) * 256 + 1 * q.val = u.val; omega

end reads

/-! ## What each point writes back is its block of the specification -/

/-- Point t writes back, to the second result, block t of the next cell state. -/
theorem cell_flushed (c : Dev nD) (t : Fin cfg0.N) :
    (dats m 0 c).flushed 7 t = ((cfg0.win 7).blk t).view.read (Elt Ideal) (cellOf m c) := by
  rw [Value.flushed7]
  funext j
  obtain ⟨p, q, rfl⟩ : ∃ (p : Fin 512) (q : Fin 256), j = ix2 p q := ⟨j 0, j 1, eq_ix2 j⟩
  obtain ⟨e00, e01, e10, e11, e20, e21, e22, e30, e31, e32, e40, e41, e50, e51, e70, e71, b0, b1⟩ := idx_facts t
  obtain ⟨r, u, hru, hr, hu⟩ : ∃ (r : Fin 4096) (u : Fin 2048), ((cfg0.win 7).blk t).view.emb (ix2 p q) = ix2 r u
      ∧ r.val = win0_7.index t (0 : Fin 2) * 512 + 1 * p.val ∧ u.val = win0_7.index t (1 : Fin 2) * 256 + 1 * q.val :=
    ⟨((cfg0.win 7).blk t).view.emb (ix2 p q) 0, ((cfg0.win 7).blk t).view.emb (ix2 p q) 1, eq_ix2 _, rfl, rfl⟩
  show out0_7 (iblk m c 0 t) (iblk m c 1 t) (iblk m c 2 t) (iblk m c 3 t) (iblk m c 4 t) (iblk m c 5 t) (ix2 p q)
      = cellOf m c (((cfg0.win 7).blk t).view.emb (ix2 p q))
  rw [hru]
  exact cell_block_at (argX m c) (argH m c) (argC m c) (argW m c) (argV m c) (argBW m c) (argBV m c) (argB m c)
    (iblk m c 0 t) (iblk m c 1 t) (iblk m c 2 t) (iblk m c 3 t) (iblk m c 4 t) (iblk m c 5 t) r u p q
    (fun k => x_rows m c t p k r (by omega)) (fun k => h_rows m c t p k r (by omega))
    (fun g k => W_slab m c t g q k u (by omega)) (fun g k => V_slab m c t g q k u (by omega))
    (fun g => bias_rows m c t g q u (by omega)) (c_block m c t p q r u (by omega) (by omega))

/-- Point t writes back, to the first result, block t of the next hidden state. -/
theorem hidden_flushed (c : Dev nD) (t : Fin cfg0.N) :
    (dats m 0 c).flushed 6 t = ((cfg0.win 6).blk t).view.read (Elt Ideal) (hiddenOf m c) := by
  rw [Value.flushed6]
  funext j
  obtain ⟨p, q, rfl⟩ : ∃ (p : Fin 512) (q : Fin 256), j = ix2 p q := ⟨j 0, j 1, eq_ix2 j⟩
  obtain ⟨e00, e01, e10, e11, e20, e21, e22, e30, e31, e32, e40, e41, e50, e51, e70, e71, b0, b1⟩ := idx_facts t
  obtain ⟨r, u, hru, hr, hu⟩ : ∃ (r : Fin 4096) (u : Fin 2048), ((cfg0.win 6).blk t).view.emb (ix2 p q) = ix2 r u
      ∧ r.val = win0_6.index t (0 : Fin 2) * 512 + 1 * p.val ∧ u.val = win0_6.index t (1 : Fin 2) * 256 + 1 * q.val :=
    ⟨((cfg0.win 6).blk t).view.emb (ix2 p q) 0, ((cfg0.win 6).blk t).view.emb (ix2 p q) 1, eq_ix2 _, rfl, rfl⟩
  show out0_6 (iblk m c 0 t) (iblk m c 1 t) (iblk m c 2 t) (iblk m c 3 t) (iblk m c 4 t) (iblk m c 5 t) (ix2 p q)
      = hiddenOf m c (((cfg0.win 6).blk t).view.emb (ix2 p q))
  rw [hru]
  exact hidden_block_at (argX m c) (argH m c) (argC m c) (argW m c) (argV m c) (argBW m c) (argBV m c) (argB m c)
    (iblk m c 0 t) (iblk m c 1 t) (iblk m c 2 t) (iblk m c 3 t) (iblk m c 4 t) (iblk m c 5 t) r u p q
    (fun k => x_rows m c t p k r (by omega)) (fun k => h_rows m c t p k r (by omega))
    (fun g k => W_slab m c t g q k u (by omega)) (fun g k => V_slab m c t g q k u (by omega))
    (fun g => bias_rows m c t g q u (by omega)) (c_block m c t p q r u (by omega) (by omega))

/-! ## The blocks tile the result arrays -/

/-- An index of the result array is in point `t`'s block iff each coordinate lies in the block's range on its axis. -/
theorem mem_blk6 (t : Fin cfg0.N) (i : S4096x2048.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v6_0).slice (win0_6.rect t)).set ↔ _
  rw [View.set_slice_whole, Rect.mem_set_unit]
  exact Iff.rfl

/-- Every index of the result array is in some point's block: row r lies in row block r / 512, unit u in unit block u / 256. -/
theorem cover6 (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  obtain ⟨e00, e01, e10, e11, e20, e21, e22, e30, e31, e32, e40, e41, e50, e51, e70, e71, b0, b1⟩ := idx_facts t
  have q0 : win0_6.index t (0 : Fin 2) = (i 0).val / 512 := congrFun ht 0
  have q1 : win0_6.index t (1 : Fin 2) = (i 1).val / 256 := congrFun ht 1
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-- An index of the result array is in point `t`'s block iff each coordinate lies in the block's range on its axis. -/
theorem mem_blk7 (t : Fin cfg0.N) (i : S4096x2048.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v6_1).slice (win0_7.rect t)).set ↔ _
  rw [View.set_slice_whole, Rect.mem_set_unit]
  exact Iff.rfl

/-- Every index of the result array is in some point's block: row r lies in row block r / 512, unit u in unit block u / 256. -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  obtain ⟨e00, e01, e10, e11, e20, e21, e22, e30, e31, e32, e40, e41, e50, e51, e70, e71, b0, b1⟩ := idx_facts t
  have q0 : win0_6.index t (0 : Fin 2) = (i 0).val / 512 := congrFun ht 0
  have q1 : win0_6.index t (1 : Fin 2) = (i 1).val / 256 := congrFun ht 1
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-! ## The arrays after the run -/

/-- The first result array ends holding the next hidden state. -/
theorem hidden_final (c : Dev nD) : (dats m 0 c).arrAt 6 cfg0.N = hiddenOf m c :=
  (dats m 0 c).arrAt_eq_of_cover 6 (hiddenOf m c) (fun t _ => hidden_flushed m c t) cover6

/-- The second result array ends holding the next cell state. -/
theorem cell_final (c : Dev nD) : (dats m 0 c).arrAt 7 cfg0.N = cellOf m c :=
  (dats m 0 c).arrAt_eq_of_cover 7 (cellOf m c) (fun t _ => cell_flushed m c t) cover7

/-- Every weakly fair execution of the kernel's program terminates with the two results at the specification's next
    hidden state and next cell state of the arguments, the arguments unchanged. -/
theorem run : θ_run defs (onTc (τ := τ) (main (F := Ideal))) ⟨m, fun _ => 0, ρ⟩ fun r => ∀ c : Dev nD,
      r.2.mem ((c : Thread nD τ).loc main_v6_0) = hiddenOf m c
      ∧ r.2.mem ((c : Thread nD τ).loc main_v6_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (hidden_final m c), (h c).2.1.trans (cell_final m c), (h c).2.2⟩)
    (Value.run_blocks m ρ)

end Cert.KernelIdeal.ArrayCell

end
-- ==== Proof.lean ====
/-
  One step of an LSTM cell, as a tiled kernel and as a whole-array reference, compute the same two arrays.

  Both programs take the input `x`, the previous hidden and cell states `h`, `c`, two stacks of four weight matrices
  `W`, `V` and three stacks of four bias rows. For gate g, row r and hidden unit u both form the pre-activation
      a g r u = (Σₖ x[r,k] · W[g,u,k] + Σₖ h[r,k] · V[g,u,k]) + ((bW[g,u] + bV[g,u]) + b[g,u])
  and return  c'[r,u] = σ(a 0 r u) · c[r,u] + σ(a 1 r u) · tanh (a 3 r u)  and  h'[r,u] = σ(a 2 r u) · tanh (c'[r,u]).

  The kernel computes them block by block: 64 grid points, each holding 512 rows of `x` and `h` and 256 units of every
  gate's weights and biases, each writing one 512 × 256 block of `h'` and of `c'`; its matrix products start from a zero
  accumulator, its weights and states pass through a shorter float format first, and its logistic function is one
  operation. The reference forms all four gates at once as a rank-3 array, slices the gates out, and spells the logistic
  function as 1 / (1 + e^(-t)). On the extended reals a change of float format is the identity, a product into a zero
  accumulator is the plain sum of products, and the spelled-out logistic function is the logistic function, so the two
  programs evaluate one and the same expression, in the same grouping, at every index: nothing has to be finite, and the
  precondition is not used. The kernel's blocks tile the results, so its arrays are that expression everywhere.

  The frames are the generated ones (the reference's is its generated run with the results dropped); the idealization
  rewrote nothing, so there is nothing to preserve.
-/
import proofs.«168563_j12618613916356_1_alg».proof.Defs
import proofs.«168563_j12618613916356_1_alg».proof.Proof.Gen.Kernel
import proofs.«168563_j12618613916356_1_alg».proof.Proof.Gen.Kernel.Skeleton
import proofs.«168563_j12618613916356_1_alg».proof.Proof.Gen.Kernel.Launch
import proofs.«168563_j12618613916356_1_alg».proof.Proof.Gen.Kernel.Points
import proofs.«168563_j12618613916356_1_alg».proof.Proof.Gen.Kernel.Frame
import proofs.«168563_j12618613916356_1_alg».proof.Proof.Gen.KernelIdeal
import proofs.«168563_j12618613916356_1_alg».proof.Proof.Gen.KernelIdeal.Skeleton
import proofs.«168563_j12618613916356_1_alg».proof.Proof.Gen.KernelIdeal.Launch
import proofs.«168563_j12618613916356_1_alg».proof.Proof.Gen.KernelIdeal.Points
import proofs.«168563_j12618613916356_1_alg».proof.Proof.Gen.KernelIdeal.Frame
import proofs.«168563_j12618613916356_1_alg».proof.Proof.Gen.ReferenceIdeal
import proofs.«168563_j12618613916356_1_alg».proof.Proof.Gen.Pre_finite_inputs
import proofs.«168563_j12618613916356_1_alg».proof.Proof.Gen.KernelIdeal.Value
import proofs.«168563_j12618613916356_1_alg».proof.Proof.Gen.ReferenceIdeal.Run
import proofs.«168563_j12618613916356_1_alg».proof.Proof.Gen.ReferenceIdeal.Read
import proofs.«168563_j12618613916356_1_alg».proof.Proof.LstmCell
import proofs.«168563_j12618613916356_1_alg».proof.Proof.ReferenceCell
import proofs.«168563_j12618613916356_1_alg».proof.Proof.BlockCell
import proofs.«168563_j12618613916356_1_alg».proof.Proof.ArrayCell
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the eight arguments, both programs end with the first result at the next hidden state
    and the second at the next cell state of the kernel's arguments. -/
theorem algebraic : Cert.algebraic_KernelIdeal_ReferenceIdeal := by
  intro m ρ m' ρ' _ hagree
  refine ⟨fun c => Cert.KernelIdeal.ArrayCell.hiddenOf m c, fun c => Cert.KernelIdeal.ArrayCell.cellOf m c,
    Cert.KernelIdeal.ArrayCell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v39_eq, Cert.ReferenceIdeal.RefValue.hidden_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]
  · rw [Cert.ReferenceIdeal.Read.val_main_v37_eq, Cert.ReferenceIdeal.RefValue.cell_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
